-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S8192x768 : Shape := ⟨2, ![8192, 768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_

variable [Facts]

def fn {F : FTy → Type} [FloatOps F] (main_arg0 : FVec F S4x8192x768 .f32) (main_arg1 : FVec F S8192x768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S4x8192x768 : Shape := ⟨3, ![4, 8192, 768]⟩
abbrev S8192x768 : Shape := ⟨2, ![8192, 768]⟩
abbrev S4x1024x768 : Shape := ⟨3, ![4, 1024, 768]⟩
abbrev S1024x768 : Shape := ⟨2, ![1024, 768]⟩
abbrev S1x1024x768 : Shape := ⟨3, ![1, 1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S4x8192x768, .f32⟩
  | .local _ .vmem, ⟨0, _⟩ => ⟨S4x1024x768, .f32⟩
  | .local _ .vmem, ⟨1, _⟩ => ⟨S4x1024x768, .f32⟩
  | .local _ .vmem, ⟨2, _⟩ => ⟨S1024x768, .f32⟩
  | .local _ .vmem, ⟨3, _⟩ => ⟨S1024x768, .f32⟩
  | .local _ .vmem, ⟨4, _⟩ => ⟨S4x1024x768, .f32⟩
  | .local _ .vmem, ⟨5, _⟩ => ⟨S4x1024x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x1024x768_S4x1024x768_0_0_0 : ∀ a, (![0, 0, 0] : Fin 3 → Nat) a + S4x1024x768.size a ≤ S4x1024x768.size a
  h_S4x1024x768 : 0 < S4x1024x768.numel
  inb_S1024x768_S1024x768_0_0 : ∀ a, (![0, 0] : Fin 2 → Nat) a + S1024x768.size a ≤ S1024x768.size a
  h_S1024x768 : 0 < S1024x768.numel
  shapeCasts_S1024x768_S1x1024x768 : S1024x768.ShapeCasts S1x1024x768
  broadcasts_S1x1024x768_S4x1024x768 : S1x1024x768.Broadcasts S4x1024x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x768.size a ≤ S4x8192x768.size a
  hwx0_0 : ∀ i : grid0.Coords, EltTy.bits .f32 = 32 ∨ (Rect.block (s := S4x8192x768) S4x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .f32 = 32 ∨ (Rect.block (s := S8192x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024x768.size a ≤ S4x8192x768.size a
  hwx0_2 : ∀ i : grid0.Coords, EltTy.bits .f32 = 32 ∨ (Rect.block (s := S4x8192x768) S4x1024x768.size (cc0_transform_2 i) (hinb0_2 i)).WholeWords (EltTy.packing .f32)

variable [Facts₀]

abbrev win0_0 : Pipeline.Window sig grid0 :=
  Pipeline.Window.ofSpec (Memref.whole main_arg0) S4x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S8192x768 : Shape := ⟨2, ![8192, 768]⟩
abbrev S8192 : Shape := ⟨1, ![8192]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S8192, .i32⟩
  | .hbm, ⟨3, _⟩ => ⟨S1x8192, .i32⟩
  | .hbm, ⟨4, _⟩ => ⟨S4x8192, .i32⟩
  | .hbm, ⟨5, _⟩ => ⟨S_, .i32⟩
  | .hbm, ⟨6, _⟩ => ⟨S4x8192, .i32⟩
  | .hbm, ⟨7, _⟩ => ⟨S4x8192, .i1⟩
  | .hbm, ⟨8, _⟩ => ⟨S_, .i32⟩
  | .hbm, ⟨9, _⟩ => ⟨S4x8192, .i32⟩
  | .hbm, ⟨10, _⟩ => ⟨S4x8192, .i32⟩
  | .hbm, ⟨11, _⟩ => ⟨S4x8192, .i32⟩
  | .hbm, ⟨12, _⟩ => ⟨S4x8192x1, .i32⟩
  | .hbm, ⟨13, _⟩ => ⟨S1, .i32⟩
  | .hbm, ⟨14, _⟩ => ⟨S_, .i32⟩
  | .hbm, ⟨15, _⟩ => ⟨S4x8192x1, .i32⟩
  | .hbm, ⟨16, _⟩ => ⟨S4x8192x1, .i1⟩
  | .hbm, ⟨17, _⟩ => ⟨S1x1x1, .i32⟩
  | .hbm, ⟨18, _⟩ => ⟨S4x8192x1, .i32⟩
  | .hbm, ⟨19, _⟩ => ⟨S4x8192x1, .i1⟩
  | .hbm, ⟨20, _⟩ => ⟨S4x8192x1, .i1⟩
  | .hbm, ⟨21, _⟩ => ⟨S_, .i1⟩
  | .hbm, ⟨22, _⟩ => ⟨S4x8192, .i1⟩
  | .hbm, ⟨23, _⟩ => ⟨S4x8192x768, .f32⟩
  | .hbm, ⟨24, _⟩ => ⟨S4x8192x768, .i1⟩
  | .hbm, ⟨25, _⟩ => ⟨S_, .f32⟩
  | .hbm, ⟨26, _⟩ => ⟨S4x8192x768, .f32⟩
  | .hbm, ⟨27, _⟩ => ⟨S4x8192x768, .f32⟩
  | .hbm, ⟨28, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x768_0_1 : S4x8192.BroadcastsInDim S4x8192x768 (![0, 1] : Fin 2 → Fin S4x8192x768.rank)
  bcast_S_S4x8192x768 : S_.BroadcastsInDim S4x8192x768 (![] : Fin 0 → Fin S4x8192x768.rank)
  gather_S8192x768_S4x8192x1_S4x8192x768_2_0_n_n_0_2_1768_wf : GatherDims.WF S8192x768 S4x8192x1 S4x8192x768 [2] [0] [] [0] [] 2 ![1, 768]

variable [Facts₀]

def gather_S8192x768_S4x8192x1_S4x8192x768_2_0_n_n_0_2_1768 : GatherDims S8192x768 S4x8192x1 S4x8192x768 where
  offsetDims := [2]
  collapsedSliceDims := [0]
  operandBatchingDims := []
  startIndicesBatchingDims := []
  startIndexMap := [0]
  indexVectorDim := 2
  sliceSizes := ![1, 768]
  wf := gather_S8192x768_S4x8192x1_S4x8192x768_2_0_n_n_0_2_1768_wf

class Facts : Prop extends Facts₀ where

variable [Facts]
-- ==== Proof.Spec.lean ====
/-
  The function both programs compute: a table row added under every batch.

  For `x : [4, 8192, 768]` and a table `pe : [8192, 768]`, entry (b, s, d) of the result is
  `x[b, s, d] + pe[s, d]`: the table's row s goes under position s of every batch b. Stated at any float
  instance; at the ideal instance the sum is the extended reals' own.
-/
import Idealize.ShloMosaic.PureOps.Ideal
import Idealize.ShloMosaic.Lib.ValueIdx

noncomputable section

namespace Cert.PosEmbed

open Idealize.ShloMosaic Idealize.ShloMosaic.ValueIdx

/-- The table entry that goes under result index (b, s, d): row s, column d. -/
abbrev rowOf (i : (⟨3, ![4, 8192, 768]⟩ : Shape).Idx) : (⟨2, ![8192, 768]⟩ : Shape).Idx :=
  ix2 (⟨(i 1).val, (i 1).isLt⟩ : Fin 8192) (⟨(i 2).val, (i 2).isLt⟩ : Fin 768)

/-- `x[b, s, d] + pe[s, d]`, index by index. -/
def addRows {F : FTy → Type} [FloatOps F] (x : FVec F ⟨3, ![4, 8192, 768]⟩ .f32) (pe : FVec F ⟨2, ![8192, 768]⟩ .f32) :
    FVec F ⟨3, ![4, 8192, 768]⟩ .f32 :=
  fun i => FloatOps.addf (x i) (pe (rowOf i))

theorem addRows_apply {F : FTy → Type} [FloatOps F] (x : FVec F ⟨3, ![4, 8192, 768]⟩ .f32)
    (pe : FVec F ⟨2, ![8192, 768]⟩ .f32) (b : Fin 4) (s : Fin 8192) (d : Fin 768) :
    addRows x pe (ix3 b s d) = FloatOps.addf (x (ix3 b s d)) (pe (ix2 s d)) := rfl

end Cert.PosEmbed

end
-- ==== Proof.KernelValue.lean ====
/-
  The kernel's result array, as one function of the argument arrays.

  The grid has 8 points; point t stages rows [1024·t, 1024·t + 1024) of every batch of `x` (a [4, 1024, 768] block)
  and the same rows of the table (a [1024, 768] block), adds the table block under each of the four batches, and
  writes the [4, 1024, 768] block back to the same rows of the result. So what point t writes back is block t of
  `addRows x pe`, the eight blocks tile the result, and the result array after the run is `addRows x pe`.
-/
import proofs.«128097_g75256416960749_cont_9to1_m_647_5_alg».proof.Proof.Gen.KernelIdeal.Value
import proofs.«128097_g75256416960749_cont_9to1_m_647_5_alg».proof.Proof.Spec
import Idealize.ShloMosaic.Lib.ValueIdx

set_option maxRecDepth 16384

noncomputable section

namespace Cert.KernelIdeal.SumValue

open Cert.KernelIdeal Cert.KernelIdeal.Gen Cert.KernelIdeal.Value Idealize.ShloMosaic Idealize.ShloMosaic.TcCoe Idealize.SL.Sem
open Idealize.ShloMosaic.Pipeline (Dat)
open Cert.PosEmbed

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- What the body leaves in the output block, at a block index: the `x` block's entry plus the table block's entry
    on the same row and column. -/
theorem body_apply (P0 : Vec F S4x1024x768 .f32) (P1 : Vec F S1024x768 .f32) (y : S4x1024x768.Idx) :
    out0_2 P0 P1 y = FloatOps.addf (P0 y) (P1 (ix2_1 y)) := by
  unfold out0_2
  rw [canon2_eq]
  simp only [View.ld_unit_zero (S := S4x1024x768) zero3, View.ld_unit_zero (S := S1024x768) zero2]
  show FloatOps.addf (P0 (ix2_0 y)) (P1 (ix2_1 y)) = _
  have e : ix2_0 y = y := by
    funext a
    match a with
    | ⟨0, _⟩ => rfl
    | ⟨1, _⟩ => rfl
    | ⟨2, _⟩ => rfl
  rw [e]

/-- The printed index maps over the grid: at point t the `x` block and the result block sit at block row t of
    every batch, the table block at block row t. -/
theorem idx_facts : ∀ t : Fin cfg0.N,
      win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- Every block row is some point's. -/
theorem idx_onto : ∀ q : Fin 8, ∃ t : Fin cfg0.N, t.val = q.val :=
  (by decide +kernel : ∀ q : Fin 8, ∃ t : Fin grid0.N, t.val = q.val)

/-- WHAT POINT t WRITES BACK is block t of `addRows` of the argument arrays. -/
theorem flushed_eq (c : Dev nD) (t : Fin cfg0.N) :
    (dats m 0 c).flushed 2 t
      = ((cfg0.win 2).blk t).view.read (Elt F) (addRows (V m c main_arg0) (V m c main_arg1)) := by
  rw [flushed2]
  obtain ⟨a0, a1, a2, b0, b1, o0, o1, o2⟩ := idx_facts t
  funext j
  show out0_2 (iblk m c 0 t) (iblk m c 1 t) j = _
  refine (body_apply (iblk m c 0 t) (iblk m c 1 t) j).trans ?_
  show FloatOps.addf (V m c main_arg0 (((cfg0.win 0).blk t).view.emb j))
        (V m c main_arg1 (((cfg0.win 1).blk t).view.emb (ix2_1 j)))
      = FloatOps.addf (V m c main_arg0 (((cfg0.win 2).blk t).view.emb j))
        (V m c main_arg1 (rowOf (((cfg0.win 2).blk t).view.emb j)))
  have h0 : ((cfg0.win 0).blk t).view.emb j = ((cfg0.win 2).blk t).view.emb j := by
    funext a; apply Fin.ext
    match a with
    | ⟨0, _⟩ => show win0_0.index t (0 : Fin 3) * 4 + 1 * (j 0).val = win0_2.index t (0 : Fin 3) * 4 + 1 * (j 0).val; omega
    | ⟨1, _⟩ => show win0_0.index t (1 : Fin 3) * 1024 + 1 * (j 1).val = win0_2.index t (1 : Fin 3) * 1024 + 1 * (j 1).val; omega
    | ⟨2, _⟩ => show win0_0.index t (2 : Fin 3) * 768 + 1 * (j 2).val = win0_2.index t (2 : Fin 3) * 768 + 1 * (j 2).val; omega
  have h1 : ((cfg0.win 1).blk t).view.emb (ix2_1 j) = rowOf (((cfg0.win 2).blk t).view.emb j) := by
    funext a; apply Fin.ext
    match a with
    | ⟨0, _⟩ => show win0_1.index t (0 : Fin 2) * 1024 + 1 * (j 1).val = win0_2.index t (1 : Fin 3) * 1024 + 1 * (j 1).val; omega
    | ⟨1, _⟩ => show win0_1.index t (1 : Fin 2) * 768 + 1 * (j 2).val = win0_2.index t (2 : Fin 3) * 768 + 1 * (j 2).val; omega
  rw [h0, h1]

/-- An index of the result is in point t's block iff each coordinate is in the block's range on its axis. -/
theorem mem_blk (t : Fin cfg0.N) (i : S4x8192x768.Idx) :
    i ∈ ((cfg0.win 2).blk t).view.set ↔ ∀ a : Fin 3, win0_2.index t a * S4x1024x768.size a ≤ (i a).val
      ∧ (i a).val < win0_2.index t a * S4x1024x768.size a + S4x1024x768.size a := by
  show i ∈ ((View.whole main_v0).slice (win0_2.rect t)).set ↔ _
  rw [View.set_slice_whole, Rect.mem_set_unit]
  exact Iff.rfl

/-- The eight blocks tile the result: index (b, s, d) is in the block of point s / 1024. -/
theorem cover (i : S4x8192x768.Idx) :
    ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 768 := (i 2).isLt
  obtain ⟨t, ht⟩ := idx_onto ⟨(i 1).val / 1024, by omega⟩
  have ht' : t.val = (i 1).val / 1024 := ht
  obtain ⟨a0, a1, a2, b0, b1, o0, o1, o2⟩ := idx_facts t
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 768 ≤ (i 2).val ∧ (i 2).val < win0_2.index t (2 : Fin 3) * 768 + 768; omega

/-- THE RESULT ARRAY after the run is `addRows` of the argument arrays. -/
theorem final (c : Dev nD) :
    (dats m 0 c).arrAt 2 cfg0.N
      = addRows (m ((c : Thread nD τ).loc main_arg0)) (m ((c : Thread nD τ).loc main_arg1)) :=
  (dats m 0 c).arrAt_eq_of_cover 2 (addRows (V m c main_arg0) (V m c main_arg1)) (fun t _ => flushed_eq m c t) cover

/-- The kernel's run: every weakly fair execution terminates with the result at `addRows` of the arguments, the
    arguments unchanged. -/
theorem run : θ_run defs (onTc (τ := τ) (main (F := F))) ⟨m, fun _ => 0, ρ⟩ fun r => ∀ c : Dev nD,
      r.2.mem ((c : Thread nD τ).loc main_v0)
          = addRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.SumValue

end
-- ==== Proof.RefRun.lean ====
/-
  The reference program's run, read back.

  The reference is a straight line of host operations once jnp.take's outlined function and the jnp.where inside
  it are unfolded at their call sites: the row numbers `pos[b, s] = s` (an iota broadcast twice), jnp.take's
  normalisation of negative row numbers (`pos < 0 ? pos + 8192 : pos`), its range test `0 ≤ row ≤ 8191`, the row
  gather out of the table, the select that keeps the gathered entry where the row number is in range, and the sum
  with `x`. Every weakly fair execution terminates with the result buffer at that composed term of the two
  argument arrays, and the arguments unchanged.
-/
import proofs.«128097_g75256416960749_cont_9to1_m_647_5_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, jnp.take's body (and the jnp.where inside it) listed at the call over the call's buffers. -/
abbrev ops : List (HloOp τ sig (Elt F)) :=
  [ nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    unary main_v1 main_v2 (broadcastInDim S4x8192 ![0, 1] bcast_S1x8192_S4x8192_0_1 : (⟨S1x8192, .i32⟩ : BufTy).Contents (Elt F) → (⟨S4x8192, .i32⟩ : BufTy).Contents (Elt F)),
    TRef.nullary main_call0.c (constantI S_ 32 0#32),
    TRef.unary main_call0.c main_call0.v0 (broadcastInDim S4x8192 ![] bcast_S_S4x8192),
    TRef.binary (.of main_v2) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v2) main_call0.v2 main_call0.v3 addi,
    TRef.ternary main_call0.v1 main_call0.v3 (.of main_v2) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1) main_call0.v5 main_call0.v13 (fun x i => Host.gather gather_S8192x768_S4x8192x1_S4x8192x768_2_0_n_n_0_2_1768 x i),
    TRef.unary main_call0.v12 main_call0.v14 (broadcastInDim S4x8192x768 ![0, 1] bcast_S4x8192_S4x8192x768_0_1),
    TRef.nullary main_call0.cst (constant S_ .f32 0x7FC00000#32),
    TRef.unary main_call0.cst main_call0.v15 (broadcastInDim S4x8192x768 ![] bcast_S_S4x8192x768),
    TRef.ternary main_call0.v14 main_call0.v13 main_call0.v15 main_call0.v16 select,
    binary main_arg0 main_v3 main_v4 (addf : (⟨S4x8192x768, .f32⟩ : BufTy).Contents (Elt F) → (⟨S4x8192x768, .f32⟩ : BufTy).Contents (Elt F) → (⟨S4x8192x768, .f32⟩ : BufTy).Contents (Elt F)) ]

set_option maxRecDepth 2048 in
/-- @main is that straight line: the two functions' definitions unfolded at their calls, both sides are one chain of
    host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub ..⟩

/-! ## The result as a term of the arguments -/

/-- The row numbers handed to jnp.take: entry (b, s) is the word s. -/
def pos : IVec S4x8192 32 :=
  broadcastInDim S4x8192 ![0, 1] bcast_S1x8192_S4x8192_0_1 (broadcastInDim S1x8192 ![1] bcast_S8192_S1x8192_1 (iotaInDim S8192 32 0))

/-- jnp.take's row numbers after its wrap of negative ones, as a column: `pos < 0 ? pos + 8192 : pos`. -/
def rows : IVec S4x8192x1 32 :=
  broadcastInDim S4x8192x1 ![0, 1] bcast_S4x8192_S4x8192x1_0_1
    (select (cmpi .slt pos (broadcastInDim S4x8192 ![] bcast_S_S4x8192 (constantI S_ 32 0#32)))
      (addi pos (broadcastInDim S4x8192 ![] bcast_S_S4x8192 (constantI S_ 32 8192#32))) pos)

/-- jnp.take's range test, spread over the result: 1 where `0 ≤ row ≤ 8191`. -/
def inRange : IVec S4x8192x768 1 :=
  broadcastInDim S4x8192x768 ![0, 1] bcast_S4x8192_S4x8192x768_0_1
    (Host.reduce IntOp.andi
      (andi (cmpi .sge rows (broadcastInDim S4x8192x1 ![] bcast_S_S4x8192x1 (constantI S_ 32 0#32)))
        (cmpi .sle rows (broadcastInDim S4x8192x1 ![0, 1, 2] bcast_S1x1x1_S4x8192x1_0_1_2
          (broadcastInDim S1x1x1 ![2] bcast_S1_S1x1x1_2 (constantI S1 32 8191#32)))))
      (constantI S_ 1 1#1) reducesTo_S4x8192x1_S4x8192_d2 h_S_)

/-- The reference's result: `x` plus the gathered table rows, the fill value where a row number is out of range. -/
def refOut (x : FVec F S4x8192x768 .f32) (pe : FVec F S8192x768 .f32) : FVec F S4x8192x768 .f32 :=
  addf x (select inRange (Host.gather gather_S8192x768_S4x8192x1_S4x8192x768_2_0_n_n_0_2_1768 pe rows)
    (broadcastInDim S4x8192x768 ![] bcast_S_S4x8192x768 (constant S_ .f32 0x7FC00000#32)))

attribute [local irreducible] Host.reduce Host.gather in
set_option maxRecDepth 8192 in
/-- The fold of the operations at the result buffer is `refOut` of the two argument arrays. -/
theorem out_eq (V : Valuation τ sig (Elt F)) :
    after ops V (main_v4 : DevRef τ sig) = refOut (V (main_arg0 : DevRef τ sig)) (V (main_arg1 : DevRef τ sig)) := by
  after_results
  simp only [TRef.toBuf, TRef.ofBuf, cast_eq]
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.LibGatherRows3.lean ====
/-
  A row gather through a rank-3 column of words, read at an index.

  For the dimension numbers `jnp.take(table, pos, axis=0)` prints when `pos` is a [B, S] array of row numbers —
  operand [N, D], start indices [B, S, 1], result [B, S, D], the operand's row axis collapsed and named by the one
  word of the index vector, the column axis kept as the result's last axis —, the result's entry (b, s, q) is the
  operand's entry (n, q) whenever the word at (b, s, 0), read signed, is the row n of the operand.
-/
import Idealize.ShloMosaic.PureOps.Ideal
import Idealize.ShloMosaic.Lib.ValueIdx

noncomputable section

namespace Cert.LibGatherRows3

open Idealize.ShloMosaic Idealize.ShloMosaic.ValueIdx

section Parts
variable {N B S D : Nat} (d : GatherDims ⟨2, ![N, D]⟩ ⟨3, ![B, S, 1]⟩ ⟨3, ![B, S, D]⟩)
    (h1 : d.offsetDims = [2]) (h2 : d.collapsedSliceDims = [0]) (h3 : d.operandBatchingDims = [])
    (h4 : d.startIndicesBatchingDims = []) (h5 : d.startIndexMap = [0]) (h6 : d.indexVectorDim = 2)
    (h7 : d.sliceSizes = ![1, D])
include h1 h2 h3 h4 h5 h6 h7

/-- On the row axis the slice starts at the word at (j 0, j 1, 0), read signed and clamped into [0, N - 1]. -/
private theorem start_row (idx : (⟨3, ![B, S, 1]⟩ : Shape).Idx → BitVec 32) (j : (⟨3, ![B, S, D]⟩ : Shape).Idx) :
    d.start j idx 0 = min (idx (ix3 (j 0) (j 1) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl
  | ⟨2, _⟩ => rfl

/-- The column axis is not named by the index vector: its slice starts at 0. -/
private theorem start_col (idx : (⟨3, ![B, S, 1]⟩ : Shape).Idx → BitVec 32) (j : (⟨3, ![B, S, D]⟩ : Shape).Idx) :
    d.start j idx 1 = 0 := by
  obtain ⟨od, cd, ob, sb, sm, iv, ss, wf⟩ := d
  simp only at h1 h2 h3 h4 h5 h6 h7
  subst h1 h2 h3 h4 h5 h6 h7
  rfl

/-- No batching axes: no batching coordinate. -/
private theorem no_batch (j : (⟨3, ![B, S, D]⟩ : Shape).Idx) (a : Fin 2) : d.batchCoord j a = 0 :=
  d.batchCoord_eq_zero j a (by rw [h3]; exact List.not_mem_nil)

/-- The row axis is collapsed: it has no offset coordinate. -/
private theorem off_row (j : (⟨3, ![B, S, D]⟩ : Shape).Idx) : d.offCoord j 0 = 0 := by
  obtain ⟨od, cd, ob, sb, sm, iv, ss, wf⟩ := d
  simp only at h1 h2 h3 h4 h5 h6 h7
  subst h1 h2 h3 h4 h5 h6 h7
  rfl

/-- The offset coordinate on the column axis is the result's last coordinate. -/
private theorem off_col (j : (⟨3, ![B, S, D]⟩ : Shape).Idx) : d.offCoord j 1 = (j 2).val := by
  obtain ⟨od, cd, ob, sb, sm, iv, ss, wf⟩ := d
  simp only at h1 h2 h3 h4 h5 h6 h7
  subst h1 h2 h3 h4 h5 h6 h7
  rfl

end Parts

/-- Gathering B·S rows out of an N × D table: entry (b, s, q) of the result is the table's entry (n, q) when the
    word at (b, s, 0), read signed, is n. -/
theorem gather_rows3 {α : Type} {N B S D : Nat} (d : GatherDims ⟨2, ![N, D]⟩ ⟨3, ![B, S, 1]⟩ ⟨3, ![B, S, D]⟩)
    (h1 : d.offsetDims = [2]) (h2 : d.collapsedSliceDims = [0]) (h3 : d.operandBatchingDims = [])
    (h4 : d.startIndicesBatchingDims = []) (h5 : d.startIndexMap = [0]) (h6 : d.indexVectorDim = 2)
    (h7 : d.sliceSizes = ![1, D])
    (x : (⟨2, ![N, D]⟩ : Shape).Idx → α) (idx : (⟨3, ![B, S, 1]⟩ : Shape).Idx → BitVec 32)
    (b : Fin B) (s : Fin S) (q : Fin D) (n : Fin N) (hn : (idx (ix3 b s 0)).toInt = (n.val : Int)) :
    Host.gather d x idx (ix3 b s q) = x (ix2 n q) := by
  -- row axis: the clamped start is n, a row of the table; nothing is added to it
  have f0 : d.start (ix3 b s q) idx 0 + d.batchCoord (ix3 b s q) 0 + d.offCoord (ix3 b s q) 0 = n.val := by
    rw [start_row d h1 h2 h3 h4 h5 h6 h7, no_batch d h1 h2 h3 h4 h5 h6 h7, off_row d h1 h2 h3 h4 h5 h6 h7]
    show min (idx (ix3 b s 0)).toInt.toNat (N - 1) + 0 + 0 = n.val
    rw [hn, Int.toNat_natCast]
    have := n.isLt
    omega
  -- column axis: the start is 0 and the offset coordinate is q
  have f1 : d.start (ix3 b s q) idx 1 + d.batchCoord (ix3 b s q) 1 + d.offCoord (ix3 b s q) 1 = q.val := by
    rw [start_col d h1 h2 h3 h4 h5 h6 h7, no_batch d h1 h2 h3 h4 h5 h6 h7, off_col d h1 h2 h3 h4 h5 h6 h7]
    show 0 + 0 + q.val = q.val
    omega
  unfold Host.gather
  congr 1
  funext a
  apply Fin.ext
  match a with
  | ⟨0, _⟩ => exact f0
  | ⟨1, _⟩ => exact f1

end Cert.LibGatherRows3

end
-- ==== Proof.RefValue.lean ====
/-
  The reference's result is `addRows` of its arguments.

  The row numbers handed to jnp.take are `pos[b, s] = s`, words below 8192: none is negative, so the wrap keeps
  each; each lies in [0, 8191], so the range test is 1 everywhere and the select keeps the gathered entry; and the
  gather reads row s of the table. So entry (b, s, d) of the result is `x[b, s, d] + pe[s, d]`.
-/
import proofs.«128097_g75256416960749_cont_9to1_m_647_5_alg».proof.Proof.RefRun
import proofs.«128097_g75256416960749_cont_9to1_m_647_5_alg».proof.Proof.LibGatherRows3
import proofs.«128097_g75256416960749_cont_9to1_m_647_5_alg».proof.Proof.Spec
import Idealize.ShloMosaic.Lib.StableHlo.Predicate
import Idealize.ShloMosaic.PureOps.Reduce

noncomputable section

namespace Cert.ReferenceIdeal.RefValue

open Cert.ReferenceIdeal Cert.ReferenceIdeal.Gen Cert.ReferenceIdeal.RefRun Idealize.ShloMosaic Idealize.ShloMosaic.ValueIdx
open Idealize.ShloMosaic.StableHlo.Predicate Cert.PosEmbed Cert.LibGatherRows3

variable {F : FTy → Type} [FloatOps F]

/-! ## A reduce by `and` of an array of ones -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- `jnp.all` along any axes of an array whose entries are all 1, from the initial value 1, is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ fun n _ => hx n

/-! ## The row numbers -/

/-- `pos[b, s]` is the word s. -/
theorem pos_apply (j : S4x8192.Idx) : pos j = BitVec.ofNat 32 (j 1).val := rfl

/-- A word below 8192 is its own value. -/
theorem toNat_small (n : Nat) (hn : n < 8192) : (BitVec.ofNat 32 n).toNat = n := by
  rw [BitVec.toNat_ofNat]; exact Nat.mod_eq_of_lt (by omega)

/-- jnp.take's wrap of negative row numbers keeps `pos`: the row number at (b, s, 0) is the word s. -/
theorem rows_apply (k : S4x8192x1.Idx) : rows k = BitVec.ofNat 32 (k 1).val := by
  have hk : (k 1).val < 8192 := (k 1).isLt
  show Scalar.select (IntOp.cmpi .slt (BitVec.ofNat 32 (k 1).val) 0#32)
      (IntOp.addi (BitVec.ofNat 32 (k 1).val) 8192#32) (BitVec.ofNat 32 (k 1).val) = _
  have hlt : ¬ IntOp.cmpi .slt (BitVec.ofNat 32 (k 1).val) 0#32 = 1#1 := by
    intro h
    have h' := (slt_iff_toNat (by rw [toNat_small _ hk]; omega) (by decide)).mp h
    exact Nat.not_lt_zero _ h'
  exact if_neg hlt

/-- Every row number passes jnp.take's range test `0 ≤ row ≤ 8191`. -/
theorem inRange_apply (i : S4x8192x768.Idx) : inRange i = 1#1 := by
  unfold inRange broadcastInDim
  refine reduce_andi_one _ _ _ _ rfl (fun k => ?_) _
  have hk : (k 1).val < 8192 := (k 1).isLt
  show IntOp.andi (IntOp.cmpi .sge (rows k) 0#32) (IntOp.cmpi .sle (rows k) 8191#32) = 1#1
  rw [rows_apply]
  have h1 : IntOp.cmpi .sge (BitVec.ofNat 32 (k 1).val) 0#32 = 1#1 :=
    (sge_iff_toNat (by rw [toNat_small _ hk]; omega) (by decide)).mpr (Nat.zero_le _)
  have h2 : IntOp.cmpi .sle (BitVec.ofNat 32 (k 1).val) 8191#32 = 1#1 :=
    (sle_iff_toNat (by rw [toNat_small _ hk]; omega) (by decide)).mpr (by rw [toNat_small _ hk]; show _ ≤ 8191; omega)
  rw [h1, h2]
  rfl

/-! ## The result -/

/-- The reference's result term is `addRows` of the arguments, at any float instance. -/
theorem refOut_eq (x : FVec F S4x8192x768 .f32) (pe : FVec F S8192x768 .f32) : refOut x pe = addRows x pe := by
  funext i
  obtain ⟨b, s, q, rfl⟩ : ∃ (b : Fin 4) (s : Fin 8192) (q : Fin 768), i = ix3 b s q := ⟨i 0, i 1, i 2, eq_ix3 i⟩
  show FloatOps.addf (x (ix3 b s q))
      (Scalar.select (inRange (ix3 b s q))
        (Host.gather gather_S8192x768_S4x8192x1_S4x8192x768_2_0_n_n_0_2_1768 pe rows (ix3 b s q))
        (broadcastInDim S4x8192x768 ![] bcast_S_S4x8192x768 (constant S_ .f32 0x7FC00000#32) (ix3 b s q)))
    = FloatOps.addf (x (ix3 b s q)) (pe (ix2 s q))
  rw [inRange_apply]
  have hrow : (rows (ix3 b s 0)).toInt = (s.val : Int) := by
    rw [rows_apply]
    exact toInt_ofNat_small _ (by have := s.isLt; show s.val < 2 ^ 31; omega)
  rw [gather_rows3 gather_S8192x768_S4x8192x1_S4x8192x768_2_0_n_n_0_2_1768 rfl rfl rfl rfl rfl rfl rfl pe rows b s q s hrow]
  rfl

end Cert.ReferenceIdeal.RefValue

end
-- ==== Proof.lean ====
/-
  A positional-embedding add: `out[b, s, d] = x[b, s, d] + pe[s, d]` over x : [4, 8192, 768] and a table
  pe : [8192, 768].

  The kernel walks the sequence axis in eight tiles of 1024 rows; at each it adds the table's tile under the four
  batches of `x`'s tile and writes the sum to the same rows of the result, so its result array is
  `addRows x pe` (Proof/KernelValue.lean, over the generated blockwise value leg). The reference gathers the
  table's rows through jnp.take at the row numbers `pos[b, s] = s` and adds `x`: the row numbers are the words
  0 … 8191, none negative and all in range, so jnp.take's wrap and its fill leave the gathered row s, and the
  result is `addRows x pe` as well (Proof/RefRun.lean reads the run back, Proof/RefValue.lean reads the term at an
  index, Proof/LibGatherRows3.lean the gather). The two sides are the same function of the arguments at every float
  instance; no law of the extended reals is used and the finiteness precondition is never opened. The three frames
  are the generated frame runs (the reference's: its run with the result dropped); the idealization rewrote nothing.
-/
import proofs.«128097_g75256416960749_cont_9to1_m_647_5_alg».proof.Defs
import proofs.«128097_g75256416960749_cont_9to1_m_647_5_alg».proof.Proof.Gen.Kernel
import proofs.«128097_g75256416960749_cont_9to1_m_647_5_alg».proof.Proof.Gen.Kernel.Skeleton
import proofs.«128097_g75256416960749_cont_9to1_m_647_5_alg».proof.Proof.Gen.Kernel.Launch
import proofs.«128097_g75256416960749_cont_9to1_m_647_5_alg».proof.Proof.Gen.Kernel.Points
import proofs.«128097_g75256416960749_cont_9to1_m_647_5_alg».proof.Proof.Gen.Kernel.Frame
import proofs.«128097_g75256416960749_cont_9to1_m_647_5_alg».proof.Proof.Gen.KernelIdeal
import proofs.«128097_g75256416960749_cont_9to1_m_647_5_alg».proof.Proof.Gen.KernelIdeal.Skeleton
import proofs.«128097_g75256416960749_cont_9to1_m_647_5_alg».proof.Proof.Gen.KernelIdeal.Launch
import proofs.«128097_g75256416960749_cont_9to1_m_647_5_alg».proof.Proof.Gen.KernelIdeal.Points
import proofs.«128097_g75256416960749_cont_9to1_m_647_5_alg».proof.Proof.Gen.KernelIdeal.Frame
import proofs.«128097_g75256416960749_cont_9to1_m_647_5_alg».proof.Proof.Gen.ReferenceIdeal
import proofs.«128097_g75256416960749_cont_9to1_m_647_5_alg».proof.Proof.Gen.Pre_finite_inputs
import proofs.«128097_g75256416960749_cont_9to1_m_647_5_alg».proof.Proof.KernelValue
import proofs.«128097_g75256416960749_cont_9to1_m_647_5_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- Both programs end with the result at `addRows` of arguments that agree. -/
theorem algebraic : Cert.algebraic_KernelIdeal_ReferenceIdeal := by
  intro m ρ m' ρ' _ hagree
  refine ⟨_, Cert.KernelIdeal.SumValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.refOut_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
